-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2000000 : Shape := ⟨2, ![8, 2000000]⟩
abbrev S8x16385 : Shape := ⟨2, ![8, 16385]⟩
abbrev S_ : Shape := ⟨0, ![]⟩

class Facts : Prop where
  bcast_S_S8x2000000 : S_.BroadcastsInDim S8x2000000 (![] : Fin 0 → Fin S8x2000000.rank)
  reducesTo_S8x2000000_S_d0_1 : S8x2000000.ReducesTo [0, 1] S_
  h_S_ : 0 < S_.numel

variable [Facts]

def fn {F : FTy → Type} [FloatOps F] (main_arg0 : IVec S8x2000000 32) (main_arg1 : IVec S8x16385 32) (main_arg2 : FVec F S8x2000000 .f32) : IVec S_ 1 :=
  let main_v0 : FVec F S8x2000000 .f32 := Host.absf main_arg2
  let main_cst : FVec F S_ .f32 := constant S_ .f32 0x7F800000#32
  let main_v1 : FVec F S8x2000000 .f32 := broadcastInDim S8x2000000 ![] bcast_S_S8x2000000 main_cst
  let main_v2 : IVec S8x2000000 1 := cmpf .olt main_v0 main_v1
  let main_c : IVec S_ 1 := constantI S_ 1 1#1
  let main_v3 : IVec S_ 1 := (fun x v => Host.reduce IntOp.andi x v reducesTo_S8x2000000_S_d0_1 h_S_) main_v2 main_c
  main_v3
-- ==== Kernel.lean ====
abbrev S8x2000000 : Shape := ⟨2, ![8, 2000000]⟩
abbrev S8x16385 : Shape := ⟨2, ![8, 16385]⟩
abbrev S1 : Shape := ⟨1, ![1]⟩
abbrev S8x80000 : Shape := ⟨2, ![8, 80000]⟩
abbrev S16000000 : Shape := ⟨1, ![16000000]⟩
abbrev S8x16384 : Shape := ⟨2, ![8, 16384]⟩
abbrev S131072 : Shape := ⟨1, ![131072]⟩
abbrev S131073 : Shape := ⟨1, ![131073]⟩

abbrev nBuf : Space → Nat
  | .hbm => 11
  | .vmem => 10
  | .smem => 0
  | _ => 0

abbrev bufTy : (tb : Table) → Fin (tcTables nBuf tb) → BufTy
  | .hbm, ⟨0, _⟩ => ⟨S8x2000000, .i32⟩
  | .hbm, ⟨1, _⟩ => ⟨S8x16385, .i32⟩
  | .hbm, ⟨2, _⟩ => ⟨S8x2000000, .f32⟩
  | .hbm, ⟨3, _⟩ => ⟨S1, .i32⟩
  | .hbm, ⟨4, _⟩ => ⟨S8x2000000, .i32⟩
  | .hbm, ⟨5, _⟩ => ⟨S8x2000000, .f32⟩
  | .hbm, ⟨6, _⟩ => ⟨S16000000, .i32⟩
  | .hbm, ⟨7, _⟩ => ⟨S16000000, .f32⟩
  | .hbm, ⟨8, _⟩ => ⟨S8x16384, .i32⟩
  | .hbm, ⟨9, _⟩ => ⟨S131072, .i32⟩
  | .hbm, ⟨10, _⟩ => ⟨S131073, .i32⟩
  | .local _ .vmem, ⟨0, _⟩ => ⟨S8x80000, .i32⟩
  | .local _ .vmem, ⟨1, _⟩ => ⟨S8x80000, .i32⟩
  | .local _ .vmem, ⟨2, _⟩ => ⟨S8x80000, .f32⟩
  | .local _ .vmem, ⟨3, _⟩ => ⟨S8x80000, .f32⟩
  | .local _ .vmem, ⟨4, _⟩ => ⟨S8x80000, .i32⟩
  | .local _ .vmem, ⟨5, _⟩ => ⟨S8x80000, .i32⟩
  | .local _ .vmem, ⟨6, _⟩ => ⟨S8x80000, .f32⟩
  | .local _ .vmem, ⟨7, _⟩ => ⟨S8x80000, .f32⟩
  | .local _ .vmem, ⟨8, _⟩ => ⟨S8x16385, .i32⟩
  | .local _ .vmem, ⟨9, _⟩ => ⟨S8x16384, .i32⟩
  | _, _ => ⟨S8x2000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x80000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x80000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x80000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x80000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8x16385 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8x16384 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  inb_S8x80000_S8x80000_0_0 : ∀ a, (![0, 0] : Fin 2 → Nat) a + S8x80000.size a ≤ S8x80000.size a
  h_S8x80000 : 0 < S8x80000.numel
  shapeCasts_S8x2000000_S16000000 : S8x2000000.ShapeCasts S16000000
  iota_S8x16384_d0_w32 : S8x16384.Iotas .tc 32 [0]
  inb_S8x16385_S8x16384_0_0 : ∀ a, (![0, 0] : Fin 2 → Nat) a + S8x16384.size a ≤ S8x16385.size a
  h_S8x16384 : 0 < S8x16384.numel
  inb_S8x16384_S8x16384_0_0 : ∀ a, (![0, 0] : Fin 2 → Nat) a + S8x16384.size a ≤ S8x16384.size a
  shapeCasts_S8x16384_S131072 : S8x16384.ShapeCasts S131072
  concatenates_S131072_S1_S131073_d0 : Shape.Concatenates [S131072, S1] S131073 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x80000.size a ≤ S8x2000000.size a
  hwx0_0 : ∀ i : grid0.Coords, EltTy.bits .i32 = 32 ∨ (Rect.block (s := S8x2000000) S8x80000.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x80000.size a ≤ S8x2000000.size a
  hwx0_1 : ∀ i : grid0.Coords, EltTy.bits .f32 = 32 ∨ (Rect.block (s := S8x2000000) S8x80000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x80000.size a ≤ S8x2000000.size a
  hwx0_2 : ∀ i : grid0.Coords, EltTy.bits .i32 = 32 ∨ (Rect.block (s := S8x2000000) S8x80000.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x80000.size a ≤ S8x2000000.size a
  hwx0_3 : ∀ i : grid0.Coords, EltTy.bits .f32 = 32 ∨ (Rect.block (s := S8x2000000) S8x80000.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x16385.size a ≤ S8x16385.size a
  hwx1_0 : ∀ i : grid1.Coords, EltTy.bits .i32 = 32 ∨ (Rect.block (s := S8x16385) S8x16385.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x16384.size a ≤ S8x16384.size a
  hwx1_1 : ∀ i : grid1.Coords, EltTy.bits .i32 = 32 ∨ (Rect.block (s := S8x16384) S8x16384.size (cc1_transform_1 i) (hinb1_1 i)).WholeWords (EltTy.packing .i32)

variable [Facts₀]

abbrev win0_0 : Pipeline.Window sig grid0 :=
  Pipeline.Window.ofSpec (Memref.whole main_arg0) S8x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x80000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x80000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x80000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8x16385.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8x16384.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S8x2000000 : Shape := ⟨2, ![8, 2000000]⟩
abbrev S8x16385 : Shape := ⟨2, ![8, 16385]⟩
abbrev S1 : Shape := ⟨1, ![1]⟩
abbrev S16000000 : Shape := ⟨1, ![16000000]⟩
abbrev S8 : Shape := ⟨1, ![8]⟩
abbrev S_ : Shape := ⟨0, ![]⟩
abbrev S8x1 : Shape := ⟨2, ![8, 1]⟩
abbrev S8x16384 : Shape := ⟨2, ![8, 16384]⟩
abbrev S131072 : Shape := ⟨1, ![131072]⟩
abbrev S131073 : Shape := ⟨1, ![131073]⟩

abbrev nBuf : Space → Nat
  | .hbm => 16
  | .vmem => 0
  | .smem => 0
  | _ => 0

abbrev bufTy : (tb : Table) → Fin (tcTables nBuf tb) → BufTy
  | .hbm, ⟨0, _⟩ => ⟨S8x2000000, .i32⟩
  | .hbm, ⟨1, _⟩ => ⟨S8x16385, .i32⟩
  | .hbm, ⟨2, _⟩ => ⟨S8x2000000, .f32⟩
  | .hbm, ⟨3, _⟩ => ⟨S1, .i32⟩
  | .hbm, ⟨4, _⟩ => ⟨S16000000, .i32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S8x1, .i32⟩
  | .hbm, ⟨10, _⟩ => ⟨S8x16384, .i32⟩
  | .hbm, ⟨11, _⟩ => ⟨S8x16384, .i32⟩
  | .hbm, ⟨12, _⟩ => ⟨S8x16384, .i32⟩
  | .hbm, ⟨13, _⟩ => ⟨S131072, .i32⟩
  | .hbm, ⟨14, _⟩ => ⟨S131073, .i32⟩
  | .hbm, ⟨15, _⟩ => ⟨S16000000, .f32⟩
  | _, _ => ⟨S8x2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  shapeCasts_S8x2000000_S16000000 : S8x2000000.ShapeCasts S16000000
  bcast_S_S8 : S_.BroadcastsInDim S8 (![] : Fin 0 → Fin S8.rank)
  bcast_S8_S8x1_0 : S8.BroadcastsInDim S8x1 (![0] : Fin 1 → Fin S8x1.rank)
  slices_S8x16385_S8x16384_0_0 : S8x16385.Slices ![0, 0] S8x16384
  bcast_S8x1_S8x16384_0_1 : S8x1.BroadcastsInDim S8x16384 (![0, 1] : Fin 2 → Fin S8x16384.rank)
  shapeCasts_S8x16384_S131072 : S8x16384.ShapeCasts S131072
  concatenates_S131072_S1_S131073_d0 : Shape.Concatenates [S131072, S1] S131073 0

variable [Facts₀]

class Facts : Prop extends Facts₀ where

variable [Facts]
-- ==== Proof.CopyRegion.lean ====
/-
  The copy region: what its two output arrays hold when it ends.

  The grid has 25 points; at point `t` every window's block is columns `80000·t … 80000·t + 79999` of all 8 rows of
  its array (block index `(0, t)`), and the body stores into each output block the input block it loaded. So what
  point `t` writes back is block `t` of the source array itself, the 25 blocks tile the 8 × 2,000,000 array
  (column `j` lies in block `j / 80000`), and each output array ends as a copy of its source.
-/
import proofs.«176758_j6038724018288_1_alg».proof.Proof.Gen.KernelIdeal.Frame
import Idealize.ShloMosaic.Lib.Pipeline.Value

set_option maxRecDepth 16384

noncomputable section

namespace Cert.KernelIdeal.CopyRegion

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zeros2 : (![0, 0] : Fin 2 → Nat) = fun _ => 0 := funext fun a => by fin_cases a <;> rfl

/-- The printed index maps over the grid: each input window sits on the block its output window sits on. -/
theorem index_facts : ∀ t : Fin cfg0.N,
    win0_0.index t (0 : Fin 2) = win0_2.index t (0 : Fin 2) ∧ win0_0.index t (1 : Fin 2) = win0_2.index t (1 : Fin 2)
    ∧ win0_1.index t (0 : Fin 2) = win0_3.index t (0 : Fin 2) ∧ win0_1.index t (1 : Fin 2) = win0_3.index t (1 : Fin 2) :=
  (by decide +kernel : ∀ t : Fin grid0.N, _)

/-- Every column block `q` of the 25 is some point's, on the first (and only) row block, for both outputs. -/
theorem index_onto : ∀ q : Fin 25, ∃ t : Fin cfg0.N, win0_2.index t = ![0, q.val] ∧ win0_3.index t = ![0, q.val] :=
  (by decide +kernel : ∀ q : Fin 25, ∃ t : Fin grid0.N, win0_2.index t = ![0, q.val] ∧ win0_3.index t = ![0, q.val])

/-- What point `t` writes back through the integer output window is block `t` of the integer source. -/
theorem flushed2_eq (c : Dev nD) (t : Fin cfg0.N) :
    (dat0 V c).flushed 2 t = ((cfg0.win 2).blk t).view.read (Elt F) (V c main_arg0) := by
  show (cfg0.win 2).cut (grid0.coords t) ((dat0 V c).after 2 t) = _
  rw [after0_2]
  unfold out0_2
  rw [View.canon_unit_zero zeros2]
  simp only [View.ld_unit_zero (S := S8x80000) zeros2]
  obtain ⟨e0, e1, -, -⟩ := index_facts t
  funext j
  show V c main_arg0 (((cfg0.win 0).blk t).view.emb j) = V c main_arg0 (((cfg0.win 2).blk t).view.emb j)
  have h0 : ((cfg0.win 0).blk t).view.emb j = ((cfg0.win 2).blk t).view.emb j := by
    funext a; apply Fin.ext
    match a with
    | ⟨0, _⟩ => show win0_0.index t (0 : Fin 2) * 8 + 1 * (j 0).val = win0_2.index t (0 : Fin 2) * 8 + 1 * (j 0).val; omega
    | ⟨1, _⟩ => show win0_0.index t (1 : Fin 2) * 80000 + 1 * (j 1).val = win0_2.index t (1 : Fin 2) * 80000 + 1 * (j 1).val; omega
  rw [h0]

/-- What point `t` writes back through the float output window is block `t` of the float source. -/
theorem flushed3_eq (c : Dev nD) (t : Fin cfg0.N) :
    (dat0 V c).flushed 3 t = ((cfg0.win 3).blk t).view.read (Elt F) (V c main_arg2) := by
  show (cfg0.win 3).cut (grid0.coords t) ((dat0 V c).after 3 t) = _
  rw [after0_3]
  unfold out0_3
  rw [View.canon_unit_zero zeros2]
  simp only [View.ld_unit_zero (S := S8x80000) zeros2]
  obtain ⟨-, -, e2, e3⟩ := index_facts t
  funext j
  show V c main_arg2 (((cfg0.win 1).blk t).view.emb j) = V c main_arg2 (((cfg0.win 3).blk t).view.emb j)
  have h1 : ((cfg0.win 1).blk t).view.emb j = ((cfg0.win 3).blk t).view.emb j := by
    funext a; apply Fin.ext
    match a with
    | ⟨0, _⟩ => show win0_1.index t (0 : Fin 2) * 8 + 1 * (j 0).val = win0_3.index t (0 : Fin 2) * 8 + 1 * (j 0).val; omega
    | ⟨1, _⟩ => show win0_1.index t (1 : Fin 2) * 80000 + 1 * (j 1).val = win0_3.index t (1 : Fin 2) * 80000 + 1 * (j 1).val; omega
  rw [h1]

/-- An index of the integer output is in point `t`'s block iff each coordinate is in the block's range. -/
theorem mem_blk2 (t : Fin cfg0.N) (i : S8x2000000.Idx) :
    i ∈ ((cfg0.win 2).blk t).view.set ↔ ∀ a : Fin 2, win0_2.index t a * S8x80000.size a ≤ (i a).val ∧ (i a).val < win0_2.index t a * S8x80000.size a + S8x80000.size a := by
  show i ∈ ((View.whole main_v0_0).slice (win0_2.rect t)).set ↔ _
  rw [View.set_slice_whole, Rect.mem_set_unit]
  exact Iff.rfl

/-- The same for the float output. -/
theorem mem_blk3 (t : Fin cfg0.N) (i : S8x2000000.Idx) :
    i ∈ ((cfg0.win 3).blk t).view.set ↔ ∀ a : Fin 2, win0_3.index t a * S8x80000.size a ≤ (i a).val ∧ (i a).val < win0_3.index t a * S8x80000.size a + S8x80000.size a := by
  show i ∈ ((View.whole main_v0_1).slice (win0_3.rect t)).set ↔ _
  rw [View.set_slice_whole, Rect.mem_set_unit]
  exact Iff.rfl

/-- Every index of the integer output lies in the block of the point on column block `j / 80000`. -/
theorem cover2 (i : S8x2000000.Idx) : ∃ t : Fin cfg0.N, (cfg0.win 2).flush t = true ∧ i ∈ ((cfg0.win 2).blk t).view.set := by
  have hi0 : (i 0).val < 8 := (i 0).isLt
  have hi1 : (i 1).val < 2000000 := (i 1).isLt
  obtain ⟨t, ht, -⟩ := index_onto ⟨(i 1).val / 80000, by omega⟩
  have q0 : win0_2.index t (0 : Fin 2) = 0 := congrFun ht 0
  have q1 : win0_2.index t (1 : Fin 2) = (i 1).val / 80000 := congrFun ht 1
  refine ⟨t, flush0_2 t, ?_⟩
  rw [mem_blk2]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 80000 ≤ (i 1).val ∧ (i 1).val < win0_2.index t (1 : Fin 2) * 80000 + 80000; omega

/-- The same for the float output. -/
theorem cover3 (i : S8x2000000.Idx) : ∃ t : Fin cfg0.N, (cfg0.win 3).flush t = true ∧ i ∈ ((cfg0.win 3).blk t).view.set := by
  have hi0 : (i 0).val < 8 := (i 0).isLt
  have hi1 : (i 1).val < 2000000 := (i 1).isLt
  obtain ⟨t, -, ht⟩ := index_onto ⟨(i 1).val / 80000, by omega⟩
  have q0 : win0_3.index t (0 : Fin 2) = 0 := congrFun ht 0
  have q1 : win0_3.index t (1 : Fin 2) = (i 1).val / 80000 := congrFun ht 1
  refine ⟨t, flush0_3 t, ?_⟩
  rw [mem_blk3]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 80000 ≤ (i 1).val ∧ (i 1).val < win0_3.index t (1 : Fin 2) * 80000 + 80000; omega

/-- The integer output array ends as a copy of the integer source. -/
theorem final2 (c : Dev nD) : (dat0 V c).arrAt 2 cfg0.N = V c main_arg0 :=
  (dat0 V c).arrAt_eq_of_cover 2 (V c main_arg0) (fun t _ => flushed2_eq V c t) cover2

/-- The float output array ends as a copy of the float source. -/
theorem final3 (c : Dev nD) : (dat0 V c).arrAt 3 cfg0.N = V c main_arg2 :=
  (dat0 V c).arrAt_eq_of_cover 3 (V c main_arg2) (fun t _ => flushed3_eq V c t) cover3

end Cert.KernelIdeal.CopyRegion

end
-- ==== Proof.OffsetsSpec.lean ====
/-
  The offsets result, as one function of the offsets table.

  The table has 8 rows (one per embedding table) of 16385 offsets; the last column is dropped and row `r`
  is shifted by `r × 2,000,000`, the number of indices the tables before it hold, in 32-bit words (both the
  product and the sum wrap). Entry `(r, j)` of the 8 × 16384 body is `table (r, j) + r × 2,000,000`.
-/
import Idealize.ShloMosaic.PureOps
import Idealize.ShloMosaic.Lib.Pipeline.Value

namespace Cert.Offsets

open Idealize.ShloMosaic

/-- The offsets table: 8 rows of 16385 words. -/
abbrev Table : Shape := ⟨2, ![8, 16385]⟩
/-- Its body: the same rows without their last column. -/
abbrev Body : Shape := ⟨2, ![8, 16384]⟩

/-- Entry `(r, j)` of the body sits at `(r, j)` of the table. -/
abbrev inTable (i : Body.Idx) : Table.Idx := fun a => match a with
  | ⟨0, _⟩ => ⟨(i 0).val, (i 0).isLt⟩
  | ⟨1, _⟩ => ⟨(i 1).val, by have h1 : (i 1).val < 16384 := (i 1).isLt; show (i 1).val < 16385; omega⟩

/-- The shifted body: `table (r, j) + r × 2,000,000` at `(r, j)`, in 32-bit words. -/
def shifted (x : Table.Idx → BitVec 32) : Body.Idx → BitVec 32 :=
  fun i => IntOp.addi (x (inTable i)) (IntOp.muli (BitVec.ofNat 32 (i 0).val) 2000000#32)

theorem shifted_apply (x : Table.Idx → BitVec 32) (i : Body.Idx) :
    shifted x i = IntOp.addi (x (inTable i)) (IntOp.muli (BitVec.ofNat 32 (i 0).val) 2000000#32) := rfl

end Cert.Offsets
-- ==== Proof.OffsetsRegion.lean ====
/-
  The offsets region: what its output array holds when it ends.

  The grid has one point; the input window's block is the whole 8 × 16385 table and the output window's block the
  whole 8 × 16384 array. The body loads the table without its last column, adds to entry `(r, j)` the product of the
  row number `r` (an `iota` along the rows) and 2,000,000, and stores the sum through the whole output buffer. So the
  point writes back the shifted body of the table, and its one block covers the output array.
-/
import proofs.«176758_j6038724018288_1_alg».proof.Proof.Gen.KernelIdeal.Frame
import proofs.«176758_j6038724018288_1_alg».proof.Proof.OffsetsSpec
import Idealize.ShloMosaic.Lib.Pipeline.Value

set_option maxRecDepth 16384

noncomputable section

namespace Cert.KernelIdeal.OffsetsRegion

open Cert.KernelIdeal Cert.KernelIdeal.Gen Cert.Offsets
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zeros2 : (![0, 0] : Fin 2 → Nat) = fun _ => 0 := funext fun a => by fin_cases a <;> rfl

/-- The body's stored value at an entry: the loaded entry plus the row number times 2,000,000. -/
theorem payload_apply (x : Vec F S8x16384 .i32) (j : S8x16384.Idx) :
    k1_pay1 (F := F) x j = IntOp.addi (x j) (IntOp.muli (BitVec.ofNat 32 (j 0).val) 2000000#32) := by
  unfold k1_pay1
  show IntOp.addi (x j) (IntOp.muli (iota .tc S8x16384 32 [0] iota_S8x16384_d0_w32 j) 2000000#32) = _
  rw [iota_single_apply]

/-- The printed index maps at the grid's points: both windows sit on block `(0, 0)`. -/
theorem index_facts : ∀ t : Fin cfg1.N,
    win1_0.index t (0 : Fin 2) = 0 ∧ win1_0.index t (1 : Fin 2) = 0
    ∧ win1_1.index t (0 : Fin 2) = 0 ∧ win1_1.index t (1 : Fin 2) = 0 :=
  (by decide +kernel : ∀ t : Fin grid1.N, _)

/-- Read at an entry of the body, the load of the table's first 16384 columns out of the table's one block is the
    table's entry there. -/
theorem load_apply (c : Dev nD) (t : Fin cfg1.N) (j : S8x16384.Idx) :
    View.ld (iblk1 V c 0 t) r1_0 j = V c main_arg1 (inTable j) := by
  obtain ⟨e0, e1, -, -⟩ := index_facts t
  show V c main_arg1 (((cfg1.win 0).blk t).view.emb (r1_0.idx j)) = V c main_arg1 (inTable j)
  congr 1
  funext a; apply Fin.ext
  match a with
  | ⟨0, _⟩ => show win1_0.index t (0 : Fin 2) * 8 + 1 * (0 + 1 * (j 0).val) = (j 0).val; omega
  | ⟨1, _⟩ => show win1_0.index t (1 : Fin 2) * 16385 + 1 * (0 + 1 * (j 1).val) = (j 1).val; omega

/-- What the point writes back is its block of the shifted body of the table. -/
theorem flushed1_eq (c : Dev nD) (t : Fin cfg1.N) :
    (dat1 V c).flushed 1 t = ((cfg1.win 1).blk t).view.read (Elt F) (shifted (V c main_arg1)) := by
  show (cfg1.win 1).cut (grid1.coords t) ((dat1 V c).after 1 t) = _
  rw [after1_1]
  unfold out1_1
  rw [View.canon_unit_zero zeros2]
  obtain ⟨-, -, e2, e3⟩ := index_facts t
  funext j
  show k1_pay1 (View.ld (iblk1 V c 0 t) r1_0) j = shifted (V c main_arg1) (((cfg1.win 1).blk t).view.emb j)
  have hj : ((cfg1.win 1).blk t).view.emb j = j := by
    funext a; apply Fin.ext
    match a with
    | ⟨0, _⟩ => show win1_1.index t (0 : Fin 2) * 8 + 1 * (j 0).val = (j 0).val; omega
    | ⟨1, _⟩ => show win1_1.index t (1 : Fin 2) * 16384 + 1 * (j 1).val = (j 1).val; omega
  rw [hj]
  refine (payload_apply _ j).trans ?_
  rw [shifted_apply, load_apply V c t j]

/-- An index of the output is in point `t`'s block iff each coordinate is in the block's range. -/
theorem mem_blk1 (t : Fin cfg1.N) (i : S8x16384.Idx) :
    i ∈ ((cfg1.win 1).blk t).view.set ↔ ∀ a : Fin 2, win1_1.index t a * S8x16384.size a ≤ (i a).val ∧ (i a).val < win1_1.index t a * S8x16384.size a + S8x16384.size a := by
  show i ∈ ((View.whole main_v3).slice (win1_1.rect t)).set ↔ _
  rw [View.set_slice_whole, Rect.mem_set_unit]
  exact Iff.rfl

/-- The one point's block is the whole output array. -/
theorem cover1 (i : S8x16384.Idx) : ∃ t : Fin cfg1.N, (cfg1.win 1).flush t = true ∧ i ∈ ((cfg1.win 1).blk t).view.set := by
  have hi0 : (i 0).val < 8 := (i 0).isLt
  have hi1 : (i 1).val < 16384 := (i 1).isLt
  obtain ⟨-, -, e2, e3⟩ := index_facts t1_0
  refine ⟨t1_0, flush1_1 t1_0, ?_⟩
  rw [mem_blk1]
  intro a
  match a with
  | ⟨0, _⟩ => show win1_1.index t1_0 (0 : Fin 2) * 8 ≤ (i 0).val ∧ (i 0).val < win1_1.index t1_0 (0 : Fin 2) * 8 + 8; omega
  | ⟨1, _⟩ => show win1_1.index t1_0 (1 : Fin 2) * 16384 ≤ (i 1).val ∧ (i 1).val < win1_1.index t1_0 (1 : Fin 2) * 16384 + 16384; omega

/-- The output array ends as the shifted body of the table the region found. -/
theorem final1 (c : Dev nD) : (dat1 V c).arrAt 1 cfg1.N = shifted (V c main_arg1) :=
  (dat1 V c).arrAt_eq_of_cover 1 (shifted (V c main_arg1)) (fun t _ => flushed1_eq V c t) cover1

end Cert.KernelIdeal.OffsetsRegion

end
-- ==== Proof.KernelResults.lean ====
/-
  The three results of the kernel program, each as a function of the arguments.

  @main is a constant, the copy region, two reshapes, the offsets region, a reshape and a concatenation. Walking the
  contents of the buffers through these segments: the two copies are the integer and the float argument (the copy
  region's arrays end as their sources), so the first and third results are those arguments flattened row-major; the
  offsets region leaves the shifted body of the offsets table, so the second result is that body flattened, followed
  by the constant word 16,000,000. No segment before a region writes an argument, so each region finds the arguments
  as launched.
-/
import proofs.«176758_j6038724018288_1_alg».proof.Proof.Gen.KernelIdeal.Frame
import proofs.«176758_j6038724018288_1_alg».proof.Proof.CopyRegion
import proofs.«176758_j6038724018288_1_alg».proof.Proof.OffsetsRegion
import proofs.«176758_j6038724018288_1_alg».proof.Proof.KernelRun
import Idealize.ShloMosaic.Lib.StableHlo.Run

set_option maxRecDepth 16384

noncomputable section

namespace Cert.KernelIdeal.Results

open Cert.KernelIdeal Cert.KernelIdeal.Gen Cert.Offsets
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## What the regions find -/

/-- The copy region finds the integer argument as launched. -/
theorem V1_main_arg0 (c : Dev nD) : V1 m ρ c main_arg0 = m ((c : Thread nD τ).loc main_arg0) := by
  show StableHlo.after hostOps0 (W0 m ρ c) (Proc.devRef .tc main_arg0) = _
  after_results <;> rfl

/-- The copy region finds the float argument as launched. -/
theorem V1_main_arg2 (c : Dev nD) : V1 m ρ c main_arg2 = m ((c : Thread nD τ).loc main_arg2) := by
  show StableHlo.after hostOps0 (W0 m ρ c) (Proc.devRef .tc main_arg2) = _
  after_results <;> rfl

/-- The offsets region finds the offsets table as launched: neither the constant, nor the copy region, nor the two
    reshapes write it. -/
theorem V3_main_arg1 (c : Dev nD) : V3 m ρ c main_arg1 = m ((c : Thread nD τ).loc main_arg1) := by
  have h32 : W3 m ρ c (Proc.devRef .tc main_arg1) = W2 m ρ c (Proc.devRef .tc main_arg1) := by
    show StableHlo.after hostOps1 (W2 m ρ c) (Proc.devRef .tc main_arg1) = _
    after_results <;> rfl
  have h21 : W2 m ρ c (Proc.devRef .tc main_arg1) = W1 m ρ c (Proc.devRef .tc main_arg1) :=
    W2_of_ne m ρ c main_arg1 (by decide)
  have h10 : W1 m ρ c (Proc.devRef .tc main_arg1) = m ((c : Thread nD τ).loc main_arg1) := by
    show StableHlo.after hostOps0 (W0 m ρ c) (Proc.devRef .tc main_arg1) = _
    after_results <;> rfl
  exact h32.trans (h21.trans h10)

/-- The constant's buffer still holds the word 16,000,000 when the last stretch of host operations reads it. -/
theorem W4_main_c (c : Dev nD) : W4 m ρ c (Proc.devRef .tc main_c) = constantI S1 32 16000000#32 := by
  have h43 : W4 m ρ c (Proc.devRef .tc main_c) = W3 m ρ c (Proc.devRef .tc main_c) :=
    W4_of_ne m ρ c main_c (by decide)
  have h32 : W3 m ρ c (Proc.devRef .tc main_c) = W2 m ρ c (Proc.devRef .tc main_c) := by
    show StableHlo.after hostOps1 (W2 m ρ c) (Proc.devRef .tc main_c) = _
    after_results <;> rfl
  have h21 : W2 m ρ c (Proc.devRef .tc main_c) = W1 m ρ c (Proc.devRef .tc main_c) :=
    W2_of_ne m ρ c main_c (by decide)
  have h10 : W1 m ρ c (Proc.devRef .tc main_c) = constantI S1 32 16000000#32 := by
    show StableHlo.after hostOps0 (W0 m ρ c) (Proc.devRef .tc main_c) = _
    after_results <;> rfl
  exact h43.trans (h32.trans (h21.trans h10))

/-! ## What the regions leave -/

/-- The integer copy is the integer argument. -/
theorem W2_main_v0_0 (c : Dev nD) : W2 m ρ c (Proc.devRef .tc main_v0_0) = m ((c : Thread nD τ).loc main_arg0) :=
  (W2_arr m ρ c 2).trans ((CopyRegion.final2 (V1 m ρ) c).trans (V1_main_arg0 m ρ c))

/-- The float copy is the float argument. -/
theorem W2_main_v0_1 (c : Dev nD) : W2 m ρ c (Proc.devRef .tc main_v0_1) = m ((c : Thread nD τ).loc main_arg2) :=
  (W2_arr m ρ c 3).trans ((CopyRegion.final3 (V1 m ρ) c).trans (V1_main_arg2 m ρ c))

/-- The offsets region's array is the shifted body of the offsets table. -/
theorem W4_main_v3 (c : Dev nD) : W4 m ρ c (Proc.devRef .tc main_v3) = shifted (m ((c : Thread nD τ).loc main_arg1)) :=
  (W4_arr m ρ c 1).trans ((OffsetsRegion.final1 (V3 m ρ) c).trans (congrArg shifted (V3_main_arg1 m ρ c)))

/-! ## The results -/

/-- The first result: the integer argument flattened. -/
theorem W5_main_v1 (c : Dev nD) :
    W5 m ρ c (Proc.devRef .tc main_v1) = shapeCast S16000000 (m ((c : Thread nD τ).loc main_arg0)) shapeCasts_S8x2000000_S16000000 := by
  have h54 : W5 m ρ c (Proc.devRef .tc main_v1) = W4 m ρ c (Proc.devRef .tc main_v1) := by
    show StableHlo.after hostOps2 (W4 m ρ c) (Proc.devRef .tc main_v1) = _
    after_results <;> rfl
  have h43 : W4 m ρ c (Proc.devRef .tc main_v1) = W3 m ρ c (Proc.devRef .tc main_v1) :=
    W4_of_ne m ρ c main_v1 (by decide)
  have h32 : W3 m ρ c (Proc.devRef .tc main_v1) = shapeCast S16000000 (W2 m ρ c (Proc.devRef .tc main_v0_0)) shapeCasts_S8x2000000_S16000000 := by
    show StableHlo.after hostOps1 (W2 m ρ c) (Proc.devRef .tc main_v1) = _
    after_results <;> rfl
  rw [h54, h43, h32, W2_main_v0_0]

/-- The third result: the float argument flattened. -/
theorem W5_main_v2 (c : Dev nD) :
    W5 m ρ c (Proc.devRef .tc main_v2) = shapeCast S16000000 (m ((c : Thread nD τ).loc main_arg2)) shapeCasts_S8x2000000_S16000000 := by
  have h54 : W5 m ρ c (Proc.devRef .tc main_v2) = W4 m ρ c (Proc.devRef .tc main_v2) := by
    show StableHlo.after hostOps2 (W4 m ρ c) (Proc.devRef .tc main_v2) = _
    after_results <;> rfl
  have h43 : W4 m ρ c (Proc.devRef .tc main_v2) = W3 m ρ c (Proc.devRef .tc main_v2) :=
    W4_of_ne m ρ c main_v2 (by decide)
  have h32 : W3 m ρ c (Proc.devRef .tc main_v2) = shapeCast S16000000 (W2 m ρ c (Proc.devRef .tc main_v0_1)) shapeCasts_S8x2000000_S16000000 := by
    show StableHlo.after hostOps1 (W2 m ρ c) (Proc.devRef .tc main_v2) = _
    after_results <;> rfl
  rw [h54, h43, h32, W2_main_v0_1]

/-- The second result: the shifted body of the offsets table flattened, then the word 16,000,000. -/
theorem W5_main_v5 (c : Dev nD) :
    W5 m ρ c (Proc.devRef .tc main_v5)
      = concatenate S131073 0 [⟨S131072, shapeCast S131072 (shifted (m ((c : Thread nD τ).loc main_arg1))) shapeCasts_S8x16384_S131072⟩,
          ⟨S1, constantI S1 32 16000000#32⟩] concatenates_S131072_S1_S131073_d0 := by
  have h5 : W5 m ρ c (Proc.devRef .tc main_v5)
      = concatenate S131073 0 [⟨S131072, shapeCast S131072 (W4 m ρ c (Proc.devRef .tc main_v3)) shapeCasts_S8x16384_S131072⟩,
          ⟨S1, W4 m ρ c (Proc.devRef .tc main_c)⟩] concatenates_S131072_S1_S131073_d0 := by
    show StableHlo.after hostOps2 (W4 m ρ c) (Proc.devRef .tc main_v5) = _
    after_results <;> rfl
  rw [h5, W4_main_v3, W4_main_c]

/-! ## The run -/

/-- Every weakly fair execution of the kernel program terminates, nothing faulting, with the three results at these
    functions of the arguments and the arguments as launched. -/
theorem run : θ_run defs (onTc (τ := τ) (main (F := F))) ⟨m, fun _ => 0, ρ⟩ (fun r => ∀ c : Dev nD,
      r.2.mem ((c.tc : Thread nD τ).loc main_v1) = shapeCast S16000000 (m ((c.tc : Thread nD τ).loc main_arg0)) shapeCasts_S8x2000000_S16000000
      ∧ r.2.mem ((c.tc : Thread nD τ).loc main_v5)
          = concatenate S131073 0 [⟨S131072, shapeCast S131072 (shifted (m ((c.tc : Thread nD τ).loc main_arg1))) shapeCasts_S8x16384_S131072⟩,
              ⟨S1, constantI S1 32 16000000#32⟩] concatenates_S131072_S1_S131073_d0
      ∧ r.2.mem ((c.tc : Thread nD τ).loc main_v2) = shapeCast S16000000 (m ((c.tc : Thread nD τ).loc main_arg2)) shapeCasts_S8x2000000_S16000000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (W5_main_v1 m ρ c), (h c).2.1.trans (W5_main_v5 m ρ c),
      (h c).2.2.1.trans (W5_main_v2 m ρ c), (h c).2.2.2⟩)
    (Cert.KernelIdeal.RunValue.run_results m ρ)

end Cert.KernelIdeal.Results

end
-- ==== Proof.RefValue.lean ====
/-
  The reference's offsets body, read entry by entry.

  The reference slices the last column off the table and adds, to every row `r`, the word `r × 2,000,000`
  it builds from an `iota` of the 8 row numbers multiplied by a broadcast constant and broadcast twice (to a
  column, then along the rows). Read at `(r, j)` each broadcast reads its operand at the row number alone, so the
  sum is `table (r, j) + r × 2,000,000`: the shifted body of the specification.
-/
import proofs.«176758_j6038724018288_1_alg».proof.Proof.Gen.ReferenceIdeal.Run
import proofs.«176758_j6038724018288_1_alg».proof.Proof.Gen.ReferenceIdeal.Read
import proofs.«176758_j6038724018288_1_alg».proof.Proof.OffsetsSpec

noncomputable section

namespace Cert.ReferenceIdeal.RefValue

open Cert.ReferenceIdeal Cert.ReferenceIdeal.Gen Idealize.ShloMosaic Cert.Offsets

variable {F : FTy → Type} [FloatOps F]

/-- The sum the reference reshapes and extends is the shifted body of its offsets argument. -/
theorem body_eq_shifted (x1 : (⟨S8x16385, .i32⟩ : BufTy).Contents (Elt F)) :
    addi (extractStridedSlice S8x16384 ![0, 0] x1 slices_S8x16385_S8x16384_0_0)
        (broadcastInDim S8x16384 ![0, 1] bcast_S8x1_S8x16384_0_1 (broadcastInDim S8x1 ![0] bcast_S8_S8x1_0
          (muli (iotaInDim S8 32 0) (broadcastInDim S8 ![] bcast_S_S8 (constantI S_ 32 2000000#32)))))
      = shifted x1 := by
  show Read.val_main_v7 (F := F) x1 = _
  funext i
  rw [Read.val_main_v7_apply, Read.val_main_v5_apply, Read.val_main_v6_apply, Read.val_main_v4_apply,
    Read.val_main_v3_apply, Read.val_main_v1_apply, Read.val_main_v2_apply, Read.val_main_c_0_apply]
  rfl

end Cert.ReferenceIdeal.RefValue

end
-- ==== Proof.lean ====
/-
  The kernel program against its reference, over the extended reals.

  Both programs take eight index lists of 2,000,000 entries each, their per-sample weights, and an 8 × 16385 table of
  offsets, and return the index lists and the weights joined end to end and ONE offsets list: row `r` of the table
  without its last entry, shifted by the `r × 2,000,000` entries the rows before it hold, the rows joined and the total
  16,000,000 appended. The reference does this with reshapes, a slice, broadcasts and a sum on the host. The kernel
  program copies the two big arrays block by block (25 blocks of 80,000 columns) in one pipelined call, computes the
  shifted offsets in a second call of one block, and reshapes and concatenates on the host.

  No float operation is applied to the weights and the offsets arithmetic is on 32-bit words, the same sum and product
  on both sides, so the results agree whatever the inputs hold: the finiteness of the weights is not used.

  The kernel program's run with its results read at the end is Proof/KernelRun.lean; its three results as functions
  of the arguments are Proof/KernelResults.lean, over the copy region's and the offsets region's final arrays
  (Proof/CopyRegion.lean and Proof/OffsetsRegion.lean); the reference's offsets body read entry by entry is
  Proof/RefValue.lean; Proof/OffsetsSpec.lean states the shifted body both sides meet in.
-/
import proofs.«176758_j6038724018288_1_alg».proof.Defs
import proofs.«176758_j6038724018288_1_alg».proof.Proof.Gen.Kernel
import proofs.«176758_j6038724018288_1_alg».proof.Proof.Gen.Kernel.Skeleton
import proofs.«176758_j6038724018288_1_alg».proof.Proof.Gen.Kernel.Launch
import proofs.«176758_j6038724018288_1_alg».proof.Proof.Gen.Kernel.Points
import proofs.«176758_j6038724018288_1_alg».proof.Proof.Gen.Kernel.Frame
import proofs.«176758_j6038724018288_1_alg».proof.Proof.Gen.KernelIdeal
import proofs.«176758_j6038724018288_1_alg».proof.Proof.Gen.KernelIdeal.Skeleton
import proofs.«176758_j6038724018288_1_alg».proof.Proof.Gen.KernelIdeal.Launch
import proofs.«176758_j6038724018288_1_alg».proof.Proof.Gen.KernelIdeal.Points
import proofs.«176758_j6038724018288_1_alg».proof.Proof.Gen.KernelIdeal.Frame
import proofs.«176758_j6038724018288_1_alg».proof.Proof.Gen.ReferenceIdeal
import proofs.«176758_j6038724018288_1_alg».proof.Proof.Gen.ReferenceIdeal.Run
import proofs.«176758_j6038724018288_1_alg».proof.Proof.Gen.ReferenceIdeal.Read
import proofs.«176758_j6038724018288_1_alg».proof.Proof.Gen.Pre_finite_inputs
import proofs.«176758_j6038724018288_1_alg».proof.Proof.KernelResults
import proofs.«176758_j6038724018288_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference is a line of host operations: its run, with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The two programs, from memories agreeing on the arguments, end with the same three results: the integer and the
    float argument flattened, and the shifted body of the offsets table flattened with the total appended. -/
theorem algebraic : Cert.algebraic_KernelIdeal_ReferenceIdeal := by
  intro m ρ m' ρ' _ hagree
  refine ⟨_, _, _, Cert.KernelIdeal.Results.run (F := Ideal) m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [(hagree c).1]
  · rw [(hagree c).2.1, Cert.ReferenceIdeal.RefValue.body_eq_shifted]
  · rw [(hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
